-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_v23) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S512x1024 : Shape := ⟨2, ![512, 1024]⟩
abbrev S512 : Shape := ⟨1, ![512]⟩
abbrev S512x512 : Shape := ⟨2, ![512, 512]⟩
abbrev S16384x512 : Shape := ⟨2, ![16384, 512]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S512x1024 : S_.BroadcastsInDim S512x1024 (![] : Fin 0 → Fin S512x1024.rank)
  reducesTo_S512x1024_S_d0_1 : S512x1024.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_
  bcast_S_S16384x512 : S_.BroadcastsInDim S16384x512 (![] : Fin 0 → Fin S16384x512.rank)
  reducesTo_S16384x512_S_d0_1 : S16384x512.ReducesTo [0, 1] S_

variable [Facts]

def fn_part2 {F : FTy → Type} [FloatOps F] (main_arg7 : FVec F S512 .f32) (main_arg8 : FVec F S16384x512 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S16384x512 .f32 := Host.absf main_arg8
  let main_cst_14 : FVec F S_ .f32 := constant S_ .f32 0x7F800000#32
  let main_v40 : FVec F S16384x512 .f32 := broadcastInDim S16384x512 ![] bcast_S_S16384x512 main_cst_14
  let main_v41 : IVec S16384x512 1 := cmpf .olt main_v39 main_v40
  let main_c_15 : IVec S_ 1 := constantI S_ 1 1#1
  let main_v42 : IVec S_ 1 := (fun x v => Host.reduce IntOp.andi x v reducesTo_S16384x512_S_d0_1 h_S_) main_v41 main_c_15
  let main_v43 : IVec S_ 1 := andi main_v38 main_v42
  main_v43

def fn_part1 {F : FTy → Type} [FloatOps F] (main_arg4 : FVec F S512 .f32) (main_arg5 : FVec F S512 .f32) (main_arg6 : FVec F S512x512 .f32) (main_arg7 : FVec F S512 .f32) (main_arg8 : FVec F S16384x512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x512 .f32 := Host.absf main_arg6
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  fn_part2 (F := F) main_arg7 main_arg8 main_v33

def fn {F : FTy → Type} [FloatOps F] (main_arg0 : FVec F S16384x1024 .f32) (main_arg1 : FVec F S512x1024 .f32) (main_arg2 : FVec F S512 .f32) (main_arg3 : FVec F S512x512 .f32) (main_arg4 : FVec F S512 .f32) (main_arg5 : FVec F S512 .f32) (main_arg6 : FVec F S512x512 .f32) (main_arg7 : FVec F S512 .f32) (main_arg8 : FVec F S16384x512 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S512x1024 .f32 := Host.absf main_arg1
  let main_cst_0 : FVec F S_ .f32 := constant S_ .f32 0x7F800000#32
  let main_v5 : FVec F S512x1024 .f32 := broadcastInDim S512x1024 ![] bcast_S_S512x1024 main_cst_0
  let main_v6 : IVec S512x1024 1 := cmpf .olt main_v4 main_v5
  let main_c_1 : IVec S_ 1 := constantI S_ 1 1#1
  let main_v7 : IVec S_ 1 := (fun x v => Host.reduce IntOp.andi x v reducesTo_S512x1024_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_arg6 main_arg7 main_arg8 main_v13 main_v16
-- ==== Kernel.lean ====
abbrev S16384x1024 : Shape := ⟨2, ![16384, 1024]⟩
abbrev S512x1024 : Shape := ⟨2, ![512, 1024]⟩
abbrev S512 : Shape := ⟨1, ![512]⟩
abbrev S512x512 : Shape := ⟨2, ![512, 512]⟩
abbrev S16384x512 : Shape := ⟨2, ![16384, 512]⟩
abbrev S_ : Shape := ⟨0, ![]⟩
abbrev S1x512 : Shape := ⟨2, ![1, 512]⟩
abbrev S1024x1024 : Shape := ⟨2, ![1024, 1024]⟩
abbrev S1024x512 : Shape := ⟨2, ![1024, 512]⟩

abbrev nBuf : Space → Nat
  | .hbm => 22
  | .vmem => 15
  | .smem => 0
  | _ => 0

abbrev bufTy : (tb : Table) → Fin (tcTables nBuf tb) → BufTy
  | .hbm, ⟨0, _⟩ => ⟨S16384x1024, .f32⟩
  | .hbm, ⟨1, _⟩ => ⟨S512x1024, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S16384x512, .f32⟩
  | .hbm, ⟨9, _⟩ => ⟨S_, .f32⟩
  | .hbm, ⟨10, _⟩ => ⟨S512, .f32⟩
  | .hbm, ⟨11, _⟩ => ⟨S512, .f32⟩
  | .hbm, ⟨12, _⟩ => ⟨S512, .f32⟩
  | .hbm, ⟨13, _⟩ => ⟨S512x1024, .bf16⟩
  | .hbm, ⟨14, _⟩ => ⟨S512x512, .bf16⟩
  | .hbm, ⟨15, _⟩ => ⟨S512x512, .bf16⟩
  | .hbm, ⟨16, _⟩ => ⟨S1x512, .f32⟩
  | .hbm, ⟨17, _⟩ => ⟨S1x512, .f32⟩
  | .hbm, ⟨18, _⟩ => ⟨S1x512, .f32⟩
  | .hbm, ⟨19, _⟩ => ⟨S1x512, .f32⟩
  | .hbm, ⟨20, _⟩ => ⟨S16384x512, .f32⟩
  | .hbm, ⟨21, _⟩ => ⟨S16384x512, .f32⟩
  | .local _ .vmem, ⟨0, _⟩ => ⟨S1024x1024, .f32⟩
  | .local _ .vmem, ⟨1, _⟩ => ⟨S1024x1024, .f32⟩
  | .local _ .vmem, ⟨2, _⟩ => ⟨S512x1024, .bf16⟩
  | .local _ .vmem, ⟨3, _⟩ => ⟨S1x512, .f32⟩
  | .local _ .vmem, ⟨4, _⟩ => ⟨S512x512, .bf16⟩
  | .local _ .vmem, ⟨5, _⟩ => ⟨S1x512, .f32⟩
  | .local _ .vmem, ⟨6, _⟩ => ⟨S1x512, .f32⟩
  | .local _ .vmem, ⟨7, _⟩ => ⟨S512x512, .bf16⟩
  | .local _ .vmem, ⟨8, _⟩ => ⟨S1x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1024x512, .f32⟩
  | .local _ .vmem, ⟨14, _⟩ => ⟨S1024x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10_0 : Ref sig .tc := ⟨.hbm, 20, rfl⟩
abbrev main_v10_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  bcast_S_S512 : S_.BroadcastsInDim S512 (![] : Fin 0 → Fin S512.rank)
  bitsLt_bf16_f32 : FTy.bits .bf16 < FTy.bits .f32
  shapeCasts_S512_S1x512 : S512.ShapeCasts S1x512
  inb_S1024x1024_S1024x1024_0_0 : ∀ a, (![0, 0] : Fin 2 → Nat) a + S1024x1024.size a ≤ S1024x1024.size a
  h_S1024x1024 : 0 < S1024x1024.numel
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1024x512_S1024x512_0_0 : ∀ a, (![0, 0] : Fin 2 → Nat) a + S1024x512.size a ≤ S1024x512.size a
  h_S1024x512 : 0 < S1024x512.numel
  dot_S1024x1024_S512x1024_S1024x512_1_1_0_0_n_n_wf : DotDims.WF S1024x1024 S512x1024 S1024x512 [1] [1] [0] [0] [] []
  dot_S1024x512_S512x512_S1024x512_1_0_0_1_n_n_wf : DotDims.WF S1024x512 S512x512 S1024x512 [1] [0] [0] [1] [] []
  dot_S1024x512_S512x512_S1024x512_1_1_0_0_n_n_wf : DotDims.WF S1024x512 S512x512 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .f32 = 32 ∨ (Rect.block (s := S16384x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S512x1024.size a
  hwx0_1 : ∀ i : grid0.Coords, EltTy.bits .bf16 = 32 ∨ (Rect.block (s := S512x1024) S512x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .bf16 = 32 ∨ (Rect.block (s := S512x512) S512x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S512x512.size a
  hwx0_6 : ∀ i : grid0.Coords, EltTy.bits .bf16 = 32 ∨ (Rect.block (s := S512x512) S512x512.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x512.size a ≤ S1x512.size a
  hwx0_7 : ∀ i : grid0.Coords, EltTy.bits .f32 = 32 ∨ (Rect.block (s := S1x512) S1x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x512.size a ≤ S16384x512.size a
  hwx0_8 : ∀ i : grid0.Coords, EltTy.bits .f32 = 32 ∨ (Rect.block (s := S16384x512) S1024x512.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1024x512.size a ≤ S16384x512.size a
  hwx0_9 : ∀ i : grid0.Coords, EltTy.bits .f32 = 32 ∨ (Rect.block (s := S16384x512) S1024x512.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1024x512.size a ≤ S16384x512.size a
  hwx0_10 : ∀ i : grid0.Coords, EltTy.bits .f32 = 32 ∨ (Rect.block (s := S16384x512) S1024x512.size (cc0_transform_10 i) (hinb0_10 i)).WholeWords (EltTy.packing .f32)

variable [Facts₀]

def dot_S1024x1024_S512x1024_S1024x512_1_1_0_0_n_n : DotDims S1024x1024 S512x1024 S1024x512 where
  lhsContracting := [1]
  rhsContracting := [1]
  lhsNonContracting := [0]
  rhsNonContracting := [0]
  lhsBatch := []
  rhsBatch := []
  wf := dot_S1024x1024_S512x1024_S1024x512_1_1_0_0_n_n_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1024x512_S512x512_S1024x512_1_1_0_0_n_n : DotDims S1024x512 S512x512 S1024x512 where
  lhsContracting := [1]
  rhsContracting := [1]
  lhsNonContracting := [0]
  rhsNonContracting := [0]
  lhsBatch := []
  rhsBatch := []
  wf := dot_S1024x512_S512x512_S1024x512_1_1_0_0_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S512x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S512x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S1x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S1024x512.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v10_0) S1024x512.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v10_1) S1024x512.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where
  halias0_10 : Pipeline.Aliased win0 8 10

variable [Facts]
-- ==== ReferenceIdeal.lean ====
abbrev S16384x1024 : Shape := ⟨2, ![16384, 1024]⟩
abbrev S512x1024 : Shape := ⟨2, ![512, 1024]⟩
abbrev S512 : Shape := ⟨1, ![512]⟩
abbrev S512x512 : Shape := ⟨2, ![512, 512]⟩
abbrev S16384x512 : Shape := ⟨2, ![16384, 512]⟩
abbrev S1024x512 : Shape := ⟨2, ![1024, 512]⟩
abbrev S1x512 : Shape := ⟨2, ![1, 512]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S512x1024, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S16384x512, .f32⟩
  | .hbm, ⟨9, _⟩ => ⟨S1024x512, .f32⟩
  | .hbm, ⟨10, _⟩ => ⟨S16384x512, .f32⟩
  | .hbm, ⟨11, _⟩ => ⟨S1x512, .f32⟩
  | .hbm, ⟨12, _⟩ => ⟨S16384x512, .f32⟩
  | .hbm, ⟨13, _⟩ => ⟨S16384x512, .f32⟩
  | .hbm, ⟨14, _⟩ => ⟨S16384x512, .f32⟩
  | .hbm, ⟨15, _⟩ => ⟨S16384x512, .f32⟩
  | .hbm, ⟨16, _⟩ => ⟨S1x512, .f32⟩
  | .hbm, ⟨17, _⟩ => ⟨S16384x512, .f32⟩
  | .hbm, ⟨18, _⟩ => ⟨S16384x512, .f32⟩
  | .hbm, ⟨19, _⟩ => ⟨S16384x512, .f32⟩
  | .hbm, ⟨20, _⟩ => ⟨S16384x512, .f32⟩
  | .hbm, ⟨21, _⟩ => ⟨S_, .f32⟩
  | .hbm, ⟨22, _⟩ => ⟨S16384x512, .f32⟩
  | .hbm, ⟨23, _⟩ => ⟨S16384x512, .f32⟩
  | .hbm, ⟨24, _⟩ => ⟨S_, .f32⟩
  | .hbm, ⟨25, _⟩ => ⟨S16384x512, .f32⟩
  | .hbm, ⟨26, _⟩ => ⟨S16384x512, .f32⟩
  | .hbm, ⟨27, _⟩ => ⟨S_, .f32⟩
  | .hbm, ⟨28, _⟩ => ⟨S512, .f32⟩
  | .hbm, ⟨29, _⟩ => ⟨S512, .f32⟩
  | .hbm, ⟨30, _⟩ => ⟨S512, .f32⟩
  | .hbm, ⟨31, _⟩ => ⟨S16384x512, .f32⟩
  | .hbm, ⟨32, _⟩ => ⟨S1x512, .f32⟩
  | .hbm, ⟨33, _⟩ => ⟨S16384x512, .f32⟩
  | .hbm, ⟨34, _⟩ => ⟨S16384x512, .f32⟩
  | .hbm, ⟨35, _⟩ => ⟨S16384x512, .f32⟩
  | .hbm, ⟨36, _⟩ => ⟨S512x512, .f32⟩
  | .hbm, ⟨37, _⟩ => ⟨S16384x512, .f32⟩
  | .hbm, ⟨38, _⟩ => ⟨S1x512, .f32⟩
  | .hbm, ⟨39, _⟩ => ⟨S16384x512, .f32⟩
  | .hbm, ⟨40, _⟩ => ⟨S16384x512, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_v13 : Ref sig .tc := ⟨.hbm, 23, rfl⟩
abbrev main_cst_0 : Ref sig .tc := ⟨.hbm, 24, rfl⟩
abbrev main_v14 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩

abbrev nD : Nat := 1
abbrev τ : Topo := Topo.v7x

variable {F : FTy → Type} [FloatOps F]

class Facts₀ : Prop where
  transposes_S512x1024_S1024x512_1_0 : S512x1024.Transposes [1, 0] S1024x512
  bcast_S512_S1x512_1 : S512.BroadcastsInDim S1x512 (![1] : Fin 1 → Fin S1x512.rank)
  bcast_S1x512_S16384x512_0_1 : S1x512.BroadcastsInDim S16384x512 (![0, 1] : Fin 2 → Fin S16384x512.rank)
  bcast_S_S16384x512 : S_.BroadcastsInDim S16384x512 (![] : Fin 0 → Fin S16384x512.rank)
  bcast_S_S512 : S_.BroadcastsInDim S512 (![] : Fin 0 → Fin S512.rank)
  transposes_S512x512_S512x512_1_0 : S512x512.Transposes [1, 0] S512x512
  dot_S16384x1024_S1024x512_S16384x512_1_0_0_1_n_n_wf : DotDims.WF S16384x1024 S1024x512 S16384x512 [1] [0] [0] [1] [] []
  dot_S16384x512_S512x512_S16384x512_1_0_0_1_n_n_wf : DotDims.WF S16384x512 S512x512 S16384x512 [1] [0] [0] [1] [] []

variable [Facts₀]

def dot_S16384x1024_S1024x512_S16384x512_1_0_0_1_n_n : DotDims S16384x1024 S1024x512 S16384x512 where
  lhsContracting := [1]
  rhsContracting := [0]
  lhsNonContracting := [0]
  rhsNonContracting := [1]
  lhsBatch := []
  rhsBatch := []
  wf := dot_S16384x1024_S1024x512_S16384x512_1_0_0_1_n_n_wf
def dot_S16384x512_S512x512_S16384x512_1_0_0_1_n_n : DotDims S16384x512 S512x512 S16384x512 where
  lhsContracting := [1]
  rhsContracting := [0]
  lhsNonContracting := [0]
  rhsNonContracting := [1]
  lhsBatch := []
  rhsBatch := []
  wf := dot_S16384x512_S512x512_S16384x512_1_0_0_1_n_n_wf

class Facts : Prop extends Facts₀ where

variable [Facts]
-- ==== Proof.CellSpec.lean ====
/-
  One step of a liquid time-constant cell on the extended reals, written row by row.

  A batch row `xr` (1024 entries) is projected by `tanh (xr · w u + b u)` onto 512 units; the projected row
  drives a sigmoid gate `a u = logistic (Σ k, pr k * sw k u + sg u)`; the state row relaxes towards the gate,
  `y u = a u + (s u - a u) * d u`, with per-unit decay `d u = exp (c / tau u)` for the constant `c` both programs
  print as the word `0xBDCCCCCD`; and the readout is `Σ k, y k * rw o k + rb o`. Everything here is a function of
  plain coordinates (`Fin 1024`, `Fin 512`): the same text describes a 1024-row block of the batch and the whole
  16384-row batch, which is what lets a block's value be compared with the whole array's.

  `stateArr` and `outArr` then state the two result arrays as functions of the nine argument arrays, index by
  index. No algebraic law is needed anywhere: both programs compute these very expressions, the kernel one block
  of rows at a time.
-/
import Idealize.ShloMosaic.PureOps.Ideal
import Idealize.ShloMosaic.Lib.ValueIdx

noncomputable section

namespace Cert.Cell

open Idealize.ShloMosaic Idealize.ShloMosaic.ValueIdx

/-- A batch row projected onto the units: `tanh (Σ k, xr k * w u k + b u)`. -/
def proj (xr : Fin 1024 → EReal) (w : Fin 512 → Fin 1024 → EReal) (b : Fin 512 → EReal) : Fin 512 → EReal :=
  fun u => Ideal.tanh ((∑ k : Fin 1024, xr k * w u k) + b u)

/-- The gate a projected row opens: `logistic (Σ k, pr k * sw k u + sg u)`. -/
def gate (pr : Fin 512 → EReal) (sw : Fin 512 → Fin 512 → EReal) (sg : Fin 512 → EReal) : Fin 512 → EReal :=
  fun u => Ideal.logistic ((∑ k : Fin 512, pr k * sw k u) + sg u)

/-- The per-unit decay over the step: `exp (c / tau u)`, `c` the printed constant (minus a tenth, as a float). -/
def decay (tau : Fin 512 → EReal) : Fin 512 → EReal :=
  fun u => Ideal.exp (Ideal.div (Ideal.ofBits .f32 0xBDCCCCCD#32) (tau u))

/-- The state row after the step: it moves from `s` towards the gate `a`, keeping the fraction `d` of the gap. -/
def relax (a s d : Fin 512 → EReal) : Fin 512 → EReal :=
  fun u => a u + (s u - a u) * d u

/-- The new state row of a batch row, from the row's inputs, the weights and the decay. -/
def state (xr : Fin 1024 → EReal) (w : Fin 512 → Fin 1024 → EReal) (b : Fin 512 → EReal)
    (sw : Fin 512 → Fin 512 → EReal) (sg d sr : Fin 512 → EReal) : Fin 512 → EReal :=
  relax (gate (proj xr w b) sw sg) sr d

/-- The readout of a state row: `Σ k, y k * rw o k + rb o`. -/
def readout (y : Fin 512 → EReal) (rw : Fin 512 → Fin 512 → EReal) (rb : Fin 512 → EReal) : Fin 512 → EReal :=
  fun o => (∑ k : Fin 512, y k * rw o k) + rb o

/-! ## The two result arrays -/

/-- The new states, [16384, 512], from the argument arrays: row `i 0` of the batch and of the old states. -/
def stateArr (x : (⟨2, ![16384, 1024]⟩ : Shape).Idx → EReal) (w : (⟨2, ![512, 1024]⟩ : Shape).Idx → EReal)
    (b : (⟨1, ![512]⟩ : Shape).Idx → EReal) (sw : (⟨2, ![512, 512]⟩ : Shape).Idx → EReal)
    (sg tau : (⟨1, ![512]⟩ : Shape).Idx → EReal) (st : (⟨2, ![16384, 512]⟩ : Shape).Idx → EReal) :
    (⟨2, ![16384, 512]⟩ : Shape).Idx → EReal :=
  fun i => state (fun k => x (ix2 (i 0) k)) (fun u k => w (ix2 u k)) (fun u => b (ix1 u))
    (fun k u => sw (ix2 k u)) (fun u => sg (ix1 u)) (decay fun u => tau (ix1 u)) (fun u => st (ix2 (i 0) u)) (i 1)

/-- The output, [16384, 512]: the readout of the new state row. -/
def outArr (x : (⟨2, ![16384, 1024]⟩ : Shape).Idx → EReal) (w : (⟨2, ![512, 1024]⟩ : Shape).Idx → EReal)
    (b : (⟨1, ![512]⟩ : Shape).Idx → EReal) (sw : (⟨2, ![512, 512]⟩ : Shape).Idx → EReal)
    (sg tau : (⟨1, ![512]⟩ : Shape).Idx → EReal) (rw : (⟨2, ![512, 512]⟩ : Shape).Idx → EReal)
    (rb : (⟨1, ![512]⟩ : Shape).Idx → EReal) (st : (⟨2, ![16384, 512]⟩ : Shape).Idx → EReal) :
    (⟨2, ![16384, 512]⟩ : Shape).Idx → EReal :=
  fun i => readout
    (state (fun k => x (ix2 (i 0) k)) (fun u k => w (ix2 u k)) (fun u => b (ix1 u))
      (fun k u => sw (ix2 k u)) (fun u => sg (ix1 u)) (decay fun u => tau (ix1 u)) (fun u => st (ix2 (i 0) u)))
    (fun o k => rw (ix2 o k)) (fun o => rb (ix1 o)) (i 1)

/-- The new-state array's row `r`, as a row: what `outArr` reads out. -/
theorem stateArr_row (x : (⟨2, ![16384, 1024]⟩ : Shape).Idx → EReal) (w : (⟨2, ![512, 1024]⟩ : Shape).Idx → EReal)
    (b : (⟨1, ![512]⟩ : Shape).Idx → EReal) (sw : (⟨2, ![512, 512]⟩ : Shape).Idx → EReal)
    (sg tau : (⟨1, ![512]⟩ : Shape).Idx → EReal) (st : (⟨2, ![16384, 512]⟩ : Shape).Idx → EReal)
    (r : Fin 16384) (u : Fin 512) :
    stateArr x w b sw sg tau st (ix2 r u)
      = state (fun k => x (ix2 r k)) (fun u k => w (ix2 u k)) (fun u => b (ix1 u))
          (fun k u => sw (ix2 k u)) (fun u => sg (ix1 u)) (decay fun u => tau (ix1 u)) (fun u => st (ix2 r u)) u := rfl

end Cert.Cell

end
-- ==== Proof.CellBody.lean ====
/-
  The kernel body's arithmetic, read at an index.

  One grid point works on a block of 1024 batch rows. Its three matrix products accumulate into a zero splat, so
  at an index `(p, u)` each is the plain sum over the contraction coordinate of its operands' products: the batch
  block against the input weight (both contracted along their second axis), the projected block against the
  sensory weight (second axis against first), and the new-state block against the readout weight (second axis
  against second). Format changes are the identity on the extended reals, a shape cast to the same shape is the
  identity, and a [1, 512] row broadcast over the block's rows reads its one row. With these the body's first
  stored value is the new-state row of CellSpec.lean for block row `p`, and its second the readout of that row.
-/
import proofs.«421318_j16544214024866_3_alg».proof.Proof.Gen.KernelIdeal.Skeleton
import proofs.«421318_j16544214024866_3_alg».proof.Proof.CellSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.CellBody

open Cert.KernelIdeal Cert.KernelIdeal.Gen
open Idealize.ShloMosaic Idealize.ShloMosaic.TcCoe Idealize.ShloMosaic.ValueIdx Cert.Cell

/-! ## The three matrix products at an index -/

theorem lhs_x_0 (i : S1024x512.Idx) (q : dot_S1024x1024_S512x1024_S1024x512_1_1_0_0_n_n.contr.Idx) :
    (dot_S1024x1024_S512x1024_S1024x512_1_1_0_0_n_n.lhsIdx i q 0).val = (i 0).val := by
  unfold DotDims.lhsIdx
  rw [dif_neg (show ¬(0 : Fin S1024x1024.rank) ∈ dot_S1024x1024_S512x1024_S1024x512_1_1_0_0_n_n.lhsBatch by decide), dif_pos (show (0 : Fin S1024x1024.rank) ∈ dot_S1024x1024_S512x1024_S1024x512_1_1_0_0_n_n.lhsNonContracting by decide)]
  rfl
theorem lhs_x_1 (i : S1024x512.Idx) (q : dot_S1024x1024_S512x1024_S1024x512_1_1_0_0_n_n.contr.Idx) :
    (dot_S1024x1024_S512x1024_S1024x512_1_1_0_0_n_n.lhsIdx i q 1).val = (q ⟨0, by decide⟩).val :=
  dot_S1024x1024_S512x1024_S1024x512_1_1_0_0_n_n.lhsIdx_val_of_single rfl i q
theorem rhs_x_0 (i : S1024x512.Idx) (q : dot_S1024x1024_S512x1024_S1024x512_1_1_0_0_n_n.contr.Idx) :
    (dot_S1024x1024_S512x1024_S1024x512_1_1_0_0_n_n.rhsIdx i q 0).val = (i 1).val := by
  unfold DotDims.rhsIdx
  rw [dif_neg (show ¬(0 : Fin S512x1024.rank) ∈ dot_S1024x1024_S512x1024_S1024x512_1_1_0_0_n_n.rhsBatch by decide), dif_pos (show (0 : Fin S512x1024.rank) ∈ dot_S1024x1024_S512x1024_S1024x512_1_1_0_0_n_n.rhsNonContracting by decide)]
  rfl
theorem rhs_x_1 (i : S1024x512.Idx) (q : dot_S1024x1024_S512x1024_S1024x512_1_1_0_0_n_n.contr.Idx) :
    (dot_S1024x1024_S512x1024_S1024x512_1_1_0_0_n_n.rhsIdx i q 1).val = (q ⟨0, by decide⟩).val :=
  dot_S1024x1024_S512x1024_S1024x512_1_1_0_0_n_n.rhsIdx_val_of_single rfl i q

/-- The batch block against the input weight: `Σ k, l (p, k) * r (u, k)`. -/
theorem matmul_x_apply (l : FVec Ideal S1024x1024 .bf16) (r : FVec Ideal S512x1024 .bf16) (p : Fin 1024) (u : Fin 512) :
    matmul dot_S1024x1024_S512x1024_S1024x512_1_1_0_0_n_n none l r (constant S1024x512 .f32 0x00000000#32) (ix2 p u)
      = ∑ k : Fin 1024, l (ix2 p k) * r (ix2 u k) := by
  refine (Ideal.matmul_constant_zero_apply dot_S1024x1024_S512x1024_S1024x512_1_1_0_0_n_n none l r (ix2 p u)).trans ?_
  rw [← Equiv.sum_comp (contrEquiv1 dot_S1024x1024_S512x1024_S1024x512_1_1_0_0_n_n 1024 rfl rfl).symm]
  refine Finset.sum_congr rfl fun k _ => ?_
  have hk := contrEquiv1_symm_val dot_S1024x1024_S512x1024_S1024x512_1_1_0_0_n_n 1024 rfl rfl k
  have el : dot_S1024x1024_S512x1024_S1024x512_1_1_0_0_n_n.lhsIdx (ix2 p u) ((contrEquiv1 dot_S1024x1024_S512x1024_S1024x512_1_1_0_0_n_n 1024 rfl rfl).symm k) = ix2 p k := funext fun a => Fin.ext (by
    match a with
    | ⟨0, _⟩ => exact lhs_x_0 _ _
    | ⟨1, _⟩ => exact (lhs_x_1 _ _).trans hk)
  have er : dot_S1024x1024_S512x1024_S1024x512_1_1_0_0_n_n.rhsIdx (ix2 p u) ((contrEquiv1 dot_S1024x1024_S512x1024_S1024x512_1_1_0_0_n_n 1024 rfl rfl).symm k) = ix2 u k := funext fun a => Fin.ext (by
    match a with
    | ⟨0, _⟩ => exact rhs_x_0 _ _
    | ⟨1, _⟩ => exact (rhs_x_1 _ _).trans hk)
  rw [el, er]

theorem lhs_s_0 (i : S1024x512.Idx) (q : dot_S1024x512_S512x512_S1024x512_1_0_0_1_n_n.contr.Idx) :
    (dot_S1024x512_S512x512_S1024x512_1_0_0_1_n_n.lhsIdx i q 0).val = (i 0).val := by
  unfold DotDims.lhsIdx
  rw [dif_neg (show ¬(0 : Fin S1024x512.rank) ∈ dot_S1024x512_S512x512_S1024x512_1_0_0_1_n_n.lhsBatch by decide), dif_pos (show (0 : Fin S1024x512.rank) ∈ dot_S1024x512_S512x512_S1024x512_1_0_0_1_n_n.lhsNonContracting by decide)]
  rfl
theorem lhs_s_1 (i : S1024x512.Idx) (q : dot_S1024x512_S512x512_S1024x512_1_0_0_1_n_n.contr.Idx) :
    (dot_S1024x512_S512x512_S1024x512_1_0_0_1_n_n.lhsIdx i q 1).val = (q ⟨0, by decide⟩).val :=
  dot_S1024x512_S512x512_S1024x512_1_0_0_1_n_n.lhsIdx_val_of_single rfl i q
theorem rhs_s_0 (i : S1024x512.Idx) (q : dot_S1024x512_S512x512_S1024x512_1_0_0_1_n_n.contr.Idx) :
    (dot_S1024x512_S512x512_S1024x512_1_0_0_1_n_n.rhsIdx i q 0).val = (q ⟨0, by decide⟩).val :=
  dot_S1024x512_S512x512_S1024x512_1_0_0_1_n_n.rhsIdx_val_of_single rfl i q
theorem rhs_s_1 (i : S1024x512.Idx) (q : dot_S1024x512_S512x512_S1024x512_1_0_0_1_n_n.contr.Idx) :
    (dot_S1024x512_S512x512_S1024x512_1_0_0_1_n_n.rhsIdx i q 1).val = (i 1).val := by
  unfold DotDims.rhsIdx
  rw [dif_neg (show ¬(1 : Fin S512x512.rank) ∈ dot_S1024x512_S512x512_S1024x512_1_0_0_1_n_n.rhsBatch by decide), dif_pos (show (1 : Fin S512x512.rank) ∈ dot_S1024x512_S512x512_S1024x512_1_0_0_1_n_n.rhsNonContracting by decide)]
  rfl

/-- The projected block against the sensory weight: `Σ k, l (p, k) * r (k, u)`. -/
theorem matmul_s_apply (l : FVec Ideal S1024x512 .bf16) (r : FVec Ideal S512x512 .bf16) (p : Fin 1024) (u : Fin 512) :
    matmul dot_S1024x512_S512x512_S1024x512_1_0_0_1_n_n none l r (constant S1024x512 .f32 0x00000000#32) (ix2 p u)
      = ∑ k : Fin 512, l (ix2 p k) * r (ix2 k u) := by
  refine (Ideal.matmul_constant_zero_apply dot_S1024x512_S512x512_S1024x512_1_0_0_1_n_n none l r (ix2 p u)).trans ?_
  rw [← Equiv.sum_comp (contrEquiv1 dot_S1024x512_S512x512_S1024x512_1_0_0_1_n_n 512 rfl rfl).symm]
  refine Finset.sum_congr rfl fun k _ => ?_
  have hk := contrEquiv1_symm_val dot_S1024x512_S512x512_S1024x512_1_0_0_1_n_n 512 rfl rfl k
  have el : dot_S1024x512_S512x512_S1024x512_1_0_0_1_n_n.lhsIdx (ix2 p u) ((contrEquiv1 dot_S1024x512_S512x512_S1024x512_1_0_0_1_n_n 512 rfl rfl).symm k) = ix2 p k := funext fun a => Fin.ext (by
    match a with
    | ⟨0, _⟩ => exact lhs_s_0 _ _
    | ⟨1, _⟩ => exact (lhs_s_1 _ _).trans hk)
  have er : dot_S1024x512_S512x512_S1024x512_1_0_0_1_n_n.rhsIdx (ix2 p u) ((contrEquiv1 dot_S1024x512_S512x512_S1024x512_1_0_0_1_n_n 512 rfl rfl).symm k) = ix2 k u := funext fun a => Fin.ext (by
    match a with
    | ⟨0, _⟩ => exact (rhs_s_0 _ _).trans hk
    | ⟨1, _⟩ => exact rhs_s_1 _ _)
  rw [el, er]

theorem lhs_r_0 (i : S1024x512.Idx) (q : dot_S1024x512_S512x512_S1024x512_1_1_0_0_n_n.contr.Idx) :
    (dot_S1024x512_S512x512_S1024x512_1_1_0_0_n_n.lhsIdx i q 0).val = (i 0).val := by
  unfold DotDims.lhsIdx
  rw [dif_neg (show ¬(0 : Fin S1024x512.rank) ∈ dot_S1024x512_S512x512_S1024x512_1_1_0_0_n_n.lhsBatch by decide), dif_pos (show (0 : Fin S1024x512.rank) ∈ dot_S1024x512_S512x512_S1024x512_1_1_0_0_n_n.lhsNonContracting by decide)]
  rfl
theorem lhs_r_1 (i : S1024x512.Idx) (q : dot_S1024x512_S512x512_S1024x512_1_1_0_0_n_n.contr.Idx) :
    (dot_S1024x512_S512x512_S1024x512_1_1_0_0_n_n.lhsIdx i q 1).val = (q ⟨0, by decide⟩).val :=
  dot_S1024x512_S512x512_S1024x512_1_1_0_0_n_n.lhsIdx_val_of_single rfl i q
theorem rhs_r_0 (i : S1024x512.Idx) (q : dot_S1024x512_S512x512_S1024x512_1_1_0_0_n_n.contr.Idx) :
    (dot_S1024x512_S512x512_S1024x512_1_1_0_0_n_n.rhsIdx i q 0).val = (i 1).val := by
  unfold DotDims.rhsIdx
  rw [dif_neg (show ¬(0 : Fin S512x512.rank) ∈ dot_S1024x512_S512x512_S1024x512_1_1_0_0_n_n.rhsBatch by decide), dif_pos (show (0 : Fin S512x512.rank) ∈ dot_S1024x512_S512x512_S1024x512_1_1_0_0_n_n.rhsNonContracting by decide)]
  rfl
theorem rhs_r_1 (i : S1024x512.Idx) (q : dot_S1024x512_S512x512_S1024x512_1_1_0_0_n_n.contr.Idx) :
    (dot_S1024x512_S512x512_S1024x512_1_1_0_0_n_n.rhsIdx i q 1).val = (q ⟨0, by decide⟩).val :=
  dot_S1024x512_S512x512_S1024x512_1_1_0_0_n_n.rhsIdx_val_of_single rfl i q

/-- The new-state block against the readout weight: `Σ k, l (p, k) * r (o, k)`. -/
theorem matmul_r_apply (l : FVec Ideal S1024x512 .bf16) (r : FVec Ideal S512x512 .bf16) (p : Fin 1024) (o : Fin 512) :
    matmul dot_S1024x512_S512x512_S1024x512_1_1_0_0_n_n none l r (constant S1024x512 .f32 0x00000000#32) (ix2 p o)
      = ∑ k : Fin 512, l (ix2 p k) * r (ix2 o k) := by
  refine (Ideal.matmul_constant_zero_apply dot_S1024x512_S512x512_S1024x512_1_1_0_0_n_n none l r (ix2 p o)).trans ?_
  rw [← Equiv.sum_comp (contrEquiv1 dot_S1024x512_S512x512_S1024x512_1_1_0_0_n_n 512 rfl rfl).symm]
  refine Finset.sum_congr rfl fun k _ => ?_
  have hk := contrEquiv1_symm_val dot_S1024x512_S512x512_S1024x512_1_1_0_0_n_n 512 rfl rfl k
  have el : dot_S1024x512_S512x512_S1024x512_1_1_0_0_n_n.lhsIdx (ix2 p o) ((contrEquiv1 dot_S1024x512_S512x512_S1024x512_1_1_0_0_n_n 512 rfl rfl).symm k) = ix2 p k := funext fun a => Fin.ext (by
    match a with
    | ⟨0, _⟩ => exact lhs_r_0 _ _
    | ⟨1, _⟩ => exact (lhs_r_1 _ _).trans hk)
  have er : dot_S1024x512_S512x512_S1024x512_1_1_0_0_n_n.rhsIdx (ix2 p o) ((contrEquiv1 dot_S1024x512_S512x512_S1024x512_1_1_0_0_n_n 512 rfl rfl).symm k) = ix2 o k := funext fun a => Fin.ext (by
    match a with
    | ⟨0, _⟩ => exact rhs_r_0 _ _
    | ⟨1, _⟩ => exact (rhs_r_1 _ _).trans hk)
  rw [el, er]

/-! ## The body's two stored values at an index -/

/-- `math.tanh` and `tpu.logistic` act entry by entry. -/
theorem tanh_apply {s : Shape} {φ : FTy} (a : FVec Ideal s φ) (i : s.Idx) : tanh a i = Ideal.tanh (a i) := rfl
theorem logistic_apply {s : Shape} {φ : FTy} (a : FVec Ideal s φ) (i : s.Idx) : logistic a i = Ideal.logistic (a i) := rfl

/-- THE FIRST STORED VALUE at `(p, q)`: the new-state row of block row `p`, from the blocks the body loads
    (the bias, the gate offset and the decay each a [1, 512] block, read at their one row). -/
theorem state_blk (v0 : Vec Ideal S1024x1024 .f32) (v2 : Vec Ideal S512x1024 .bf16) (v5 : Vec Ideal S1x512 .f32)
    (v11 : Vec Ideal S512x512 .bf16) (v14 : Vec Ideal S1x512 .f32) (v19 : Vec Ideal S1024x512 .f32) (v21 : Vec Ideal S1x512 .f32)
    (p : Fin 1024) (q : Fin 512) :
    k0_pay1 v0 v2 v5 v11 v14 v19 v21 (ix2 p q)
      = state (fun k => v0 (ix2 p k)) (fun u k => v2 (ix2 u k)) (fun u => v5 (ix2 (0 : Fin 1) u)) (fun k u => v11 (ix2 k u))
          (fun u => v14 (ix2 (0 : Fin 1) u)) (fun u => v21 (ix2 (0 : Fin 1) u)) (fun u => v19 (ix2 p u)) q := by
  unfold k0_pay1
  simp only [addf_apply, mulf_apply, subf_apply, logistic_apply, tanh_apply, truncf_apply, matmul_s_apply, matmul_x_apply,
    broadcastTo_1b_ab_apply, shapeCast_self]
  rfl

/-- THE SECOND STORED VALUE at `(p, o)`: the readout of that new-state row against row `o` of the readout weight. -/
theorem out_blk (v0 : Vec Ideal S1024x1024 .f32) (v2 : Vec Ideal S512x1024 .bf16) (v5 : Vec Ideal S1x512 .f32)
    (v11 : Vec Ideal S512x512 .bf16) (v14 : Vec Ideal S1x512 .f32) (v19 : Vec Ideal S1024x512 .f32) (v21 : Vec Ideal S1x512 .f32)
    (v28 : Vec Ideal S512x512 .bf16) (v31 : Vec Ideal S1x512 .f32) (p : Fin 1024) (o : Fin 512) :
    k0_pay2 v0 v2 v5 v11 v14 v19 v21 v28 v31 (ix2 p o)
      = readout (state (fun k => v0 (ix2 p k)) (fun u k => v2 (ix2 u k)) (fun u => v5 (ix2 (0 : Fin 1) u)) (fun k u => v11 (ix2 k u))
          (fun u => v14 (ix2 (0 : Fin 1) u)) (fun u => v21 (ix2 (0 : Fin 1) u)) (fun u => v19 (ix2 p u)))
          (fun o k => v28 (ix2 o k)) (fun o => v31 (ix2 (0 : Fin 1) o)) o := by
  unfold k0_pay2
  simp only [addf_apply, truncf_apply, matmul_r_apply, broadcastTo_1b_ab_apply, shapeCast_self, state_blk]
  rfl

end Cert.KernelIdeal.CellBody

end
-- ==== Proof.CellArrays.lean ====
/-
  What the kernel's region finds in the arrays the host operations wrote before it.

  Before the one region the program casts the three weights to a narrower float format (the identity on the
  extended reals), reshapes the three per-unit vectors [512] to [1, 512] (entry `(0, u)` of the result is entry
  `u` of the operand), and computes the decay `exp (c / tau)` entry by entry before reshaping it the same way.
  Each lemma below reads one of those arrays, as the region finds it, at an index, back to the argument array it
  was made from.
-/
import proofs.«421318_j16544214024866_3_alg».proof.Proof.Gen.KernelIdeal.Frame
import proofs.«421318_j16544214024866_3_alg».proof.Proof.CellSpec
import Idealize.ShloMosaic.Lib.StableHlo.Run
import Idealize.ShloMosaic.Lib.ValueIdx
import Idealize.ShloMosaic.Lib.ValueLayout

noncomputable section

namespace Cert.KernelIdeal.CellArrays

open Cert.KernelIdeal Cert.KernelIdeal.Gen
open Idealize.ShloMosaic Idealize.ShloMosaic.TcCoe Idealize.ShloMosaic.ValueIdx Idealize.SL.Sem Idealize.ShloMosaic.StableHlo Cert.Cell

variable (m : (ℓ : Loc nD τ sig) → Buf (Elt Ideal) ℓ)

/-! ## The arrays, whole -/

theorem w_eq (c : Dev nD) : (V m c main_v3 : S512x1024.Idx → EReal)
    = truncf (F := Ideal) .bf16 (m ((c : Thread nD τ).loc main_arg1)) bitsLt_bf16_f32 := by
  dsimp only [Gen.V, Gen.hostOps0]; after_results

theorem sw_eq (c : Dev nD) : (V m c main_v4 : S512x512.Idx → EReal)
    = truncf (F := Ideal) .bf16 (m ((c : Thread nD τ).loc main_arg3)) bitsLt_bf16_f32 := by
  dsimp only [Gen.V, Gen.hostOps0]; after_results

theorem rw_eq (c : Dev nD) : (V m c main_v5 : S512x512.Idx → EReal)
    = truncf (F := Ideal) .bf16 (m ((c : Thread nD τ).loc main_arg6)) bitsLt_bf16_f32 := by
  dsimp only [Gen.V, Gen.hostOps0]; after_results

theorem b_eq (c : Dev nD) : (V m c main_v6 : S1x512.Idx → EReal)
    = shapeCast S1x512 (m ((c : Thread nD τ).loc main_arg2)) shapeCasts_S512_S1x512 := by
  dsimp only [Gen.V, Gen.hostOps0]; after_results; rfl

theorem sg_eq (c : Dev nD) : (V m c main_v7 : S1x512.Idx → EReal)
    = shapeCast S1x512 (m ((c : Thread nD τ).loc main_arg4)) shapeCasts_S512_S1x512 := by
  dsimp only [Gen.V, Gen.hostOps0]; after_results; rfl

theorem dec_eq (c : Dev nD) : (V m c main_v8 : S1x512.Idx → EReal)
    = shapeCast S1x512 (Host.exp (F := Ideal) (Host.divf (F := Ideal)
        (broadcastInDim S512 ![] bcast_S_S512 (constant (F := Ideal) S_ .f32 0xBDCCCCCD#32))
        (m ((c : Thread nD τ).loc main_arg5)))) shapeCasts_S512_S1x512 := by
  dsimp only [Gen.V, Gen.hostOps0]; after_results; rfl

theorem rb_eq (c : Dev nD) : (V m c main_v9 : S1x512.Idx → EReal)
    = shapeCast S1x512 (m ((c : Thread nD τ).loc main_arg7)) shapeCasts_S512_S1x512 := by
  dsimp only [Gen.V, Gen.hostOps0]; after_results; rfl

/-! ## The arrays at an index -/

/-- The input weight as the region finds it is the argument's, entry by entry. -/
theorem w_at (c : Dev nD) (u : Fin 512) (k : Fin 1024) :
    (V m c main_v3 : S512x1024.Idx → EReal) (ix2 u k) = m ((c : Thread nD τ).loc main_arg1) (ix2 u k) := by
  rw [w_eq]; rfl

/-- The sensory weight likewise. -/
theorem sw_at (c : Dev nD) (k u : Fin 512) :
    (V m c main_v4 : S512x512.Idx → EReal) (ix2 k u) = m ((c : Thread nD τ).loc main_arg3) (ix2 k u) := by
  rw [sw_eq]; rfl

/-- The readout weight likewise. -/
theorem rw_at (c : Dev nD) (o k : Fin 512) :
    (V m c main_v5 : S512x512.Idx → EReal) (ix2 o k) = m ((c : Thread nD τ).loc main_arg6) (ix2 o k) := by
  rw [rw_eq]; rfl

/-- The projection bias, as a [1, 512] row. -/
theorem b_at (c : Dev nD) (u : Fin 512) :
    (V m c main_v6 : S1x512.Idx → EReal) (ix2 (0 : Fin 1) u) = m ((c : Thread nD τ).loc main_arg2) (ix1 u) := by
  rw [b_eq]; exact shapeCast_a_1a_apply _ _ _ _

/-- The gate offset, as a [1, 512] row. -/
theorem sg_at (c : Dev nD) (u : Fin 512) :
    (V m c main_v7 : S1x512.Idx → EReal) (ix2 (0 : Fin 1) u) = m ((c : Thread nD τ).loc main_arg4) (ix1 u) := by
  rw [sg_eq]; exact shapeCast_a_1a_apply _ _ _ _

/-- The decay row: `exp (c / tau u)`, computed before the region. -/
theorem dec_at (c : Dev nD) (u : Fin 512) :
    (V m c main_v8 : S1x512.Idx → EReal) (ix2 (0 : Fin 1) u) = decay (fun u => m ((c : Thread nD τ).loc main_arg5) (ix1 u)) u := by
  rw [dec_eq]; exact (shapeCast_a_1a_apply _ _ _ _).trans rfl

/-- The readout bias, as a [1, 512] row. -/
theorem rb_at (c : Dev nD) (o : Fin 512) :
    (V m c main_v9 : S1x512.Idx → EReal) (ix2 (0 : Fin 1) o) = m ((c : Thread nD τ).loc main_arg7) (ix1 o) := by
  rw [rb_eq]; exact shapeCast_a_1a_apply _ _ _ _

end Cert.KernelIdeal.CellArrays

end
-- ==== Proof.CellBlocks.lean ====
/-
  The kernel's two result arrays, from its blocks.

  The grid has 16 points; point `t` works on batch rows `1024 t … 1024 t + 1023`: its batch block, its old-state
  block and its two output blocks all sit at block row `t`, while the weights, the three bias rows and the decay
  row are the same whole arrays at every point. So what point `t` writes back to the new-state array is block `t`
  of `stateArr` of the arguments, and what it writes back to the output array is block `t` of `outArr`: row `p`
  of the block is row `1024 t + p` of the batch, and the body computes that row's cell step (CellBody.lean) from
  arrays that are the arguments' (CellArrays.lean). The 16 blocks tile the 16384 rows, so after the run each
  result array IS that function of the arguments.
-/
import proofs.«421318_j16544214024866_3_alg».proof.Proof.Gen.KernelIdeal.Value
import proofs.«421318_j16544214024866_3_alg».proof.Proof.CellBody
import proofs.«421318_j16544214024866_3_alg».proof.Proof.CellArrays

noncomputable section

namespace Cert.KernelIdeal.CellValue

open Cert.KernelIdeal Cert.KernelIdeal.Gen Cert.KernelIdeal.CellBody Cert.KernelIdeal.CellArrays
open Idealize.ShloMosaic Idealize.ShloMosaic.TcCoe Idealize.ShloMosaic.ValueIdx Idealize.SL.Sem Cert.Cell
open Idealize.ShloMosaic.Pipeline (Dat)

variable (m : (ℓ : Loc nD τ sig) → Buf (Elt Ideal) ℓ) (ρ : Dev nD → PrngReg)

/-- The new-state array of the arguments as launched. -/
abbrev newStates (c : Dev nD) : S16384x512.Idx → EReal :=
  stateArr (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg8))

/-- The output array of the arguments as launched. -/
abbrev outputs (c : Dev nD) : S16384x512.Idx → EReal :=
  outArr (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7)) (m ((c : Thread nD τ).loc main_arg8))

theorem zero_off : (![0, 0] : Fin 2 → Nat) = fun _ => 0 := funext fun a => by fin_cases a <;> rfl

/-- The printed index maps, decided over the 16 points: the batch, the old states and both outputs sit at the
    point's block row; every other window is its whole array; the block row is below 16. -/
theorem idx_facts : ∀ t : Fin cfg0.N,
    win0_0.index t (0 : Fin 2) = win0_10.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = win0_10.index t (0 : Fin 2) ∧ win0_8.index t (1 : Fin 2) = 0
    ∧ win0_9.index t (0 : Fin 2) = win0_10.index t (0 : Fin 2) ∧ win0_9.index t (1 : Fin 2) = 0
    ∧ win0_10.index t (1 : Fin 2) = 0 ∧ win0_10.index t (0 : Fin 2) ≤ 15 :=
  (by decide +kernel : ∀ t : Fin grid0.N, _)

/-- Every block row is some point's. -/
theorem idx_onto : ∀ q0 : Fin 16, ∃ t : Fin cfg0.N, win0_10.index t (0 : Fin 2) = q0.val :=
  (by decide +kernel : ∀ q0 : Fin 16, ∃ t : Fin grid0.N, win0_10.index t (0 : Fin 2) = q0.val)

/-! ## One point, over any blocks that are the arguments' -/

/-- If the blocks the body loads are row `r` of the batch and of the old states, the weights, the bias rows and the
    decay row of the arguments, its first stored value at `(p, q)` is the new-state array at `(r, q)`. -/
theorem point_state (X : Vec Ideal S1024x1024 .f32) (W : Vec Ideal S512x1024 .bf16) (B : Vec Ideal S1x512 .f32)
    (SW : Vec Ideal S512x512 .bf16) (SG : Vec Ideal S1x512 .f32) (ST : Vec Ideal S1024x512 .f32) (D : Vec Ideal S1x512 .f32)
    (x : S16384x1024.Idx → EReal) (w : S512x1024.Idx → EReal) (b : S512.Idx → EReal) (sw : S512x512.Idx → EReal)
    (sg tau : S512.Idx → EReal) (st : S16384x512.Idx → EReal) (p : Fin 1024) (q : Fin 512) (r : Fin 16384)
    (hX : ∀ k : Fin 1024, X (ix2 p k) = x (ix2 r k)) (hW : ∀ (u : Fin 512) (k : Fin 1024), W (ix2 u k) = w (ix2 u k))
    (hB : ∀ u : Fin 512, B (ix2 (0 : Fin 1) u) = b (ix1 u)) (hSW : ∀ k u : Fin 512, SW (ix2 k u) = sw (ix2 k u))
    (hSG : ∀ u : Fin 512, SG (ix2 (0 : Fin 1) u) = sg (ix1 u))
    (hD : ∀ u : Fin 512, D (ix2 (0 : Fin 1) u) = decay (fun u => tau (ix1 u)) u)
    (hST : ∀ u : Fin 512, ST (ix2 p u) = st (ix2 r u)) :
    k0_pay1 X W B SW SG ST D (ix2 p q) = stateArr x w b sw sg tau st (ix2 r q) := by
  rw [state_blk, stateArr_row]
  simp only [hX, hW, hB, hSW, hSG, hD, hST]

/-- Under the same hypotheses, and the readout weight and bias row the arguments', the second stored value at
    `(p, o)` is the output array at `(r, o)`. -/
theorem point_out (X : Vec Ideal S1024x1024 .f32) (W : Vec Ideal S512x1024 .bf16) (B : Vec Ideal S1x512 .f32)
    (SW : Vec Ideal S512x512 .bf16) (SG : Vec Ideal S1x512 .f32) (ST : Vec Ideal S1024x512 .f32) (D : Vec Ideal S1x512 .f32)
    (RW : Vec Ideal S512x512 .bf16) (RB : Vec Ideal S1x512 .f32)
    (x : S16384x1024.Idx → EReal) (w : S512x1024.Idx → EReal) (b : S512.Idx → EReal) (sw : S512x512.Idx → EReal)
    (sg tau : S512.Idx → EReal) (rw : S512x512.Idx → EReal) (rb : S512.Idx → EReal) (st : S16384x512.Idx → EReal)
    (p : Fin 1024) (o : Fin 512) (r : Fin 16384)
    (hX : ∀ k : Fin 1024, X (ix2 p k) = x (ix2 r k)) (hW : ∀ (u : Fin 512) (k : Fin 1024), W (ix2 u k) = w (ix2 u k))
    (hB : ∀ u : Fin 512, B (ix2 (0 : Fin 1) u) = b (ix1 u)) (hSW : ∀ k u : Fin 512, SW (ix2 k u) = sw (ix2 k u))
    (hSG : ∀ u : Fin 512, SG (ix2 (0 : Fin 1) u) = sg (ix1 u))
    (hD : ∀ u : Fin 512, D (ix2 (0 : Fin 1) u) = decay (fun u => tau (ix1 u)) u)
    (hST : ∀ u : Fin 512, ST (ix2 p u) = st (ix2 r u))
    (hRW : ∀ o k : Fin 512, RW (ix2 o k) = rw (ix2 o k)) (hRB : ∀ o : Fin 512, RB (ix2 (0 : Fin 1) o) = rb (ix1 o)) :
    k0_pay2 X W B SW SG ST D RW RB (ix2 p o) = outArr x w b sw sg tau rw rb st (ix2 r o) := by
  rw [out_blk]
  show _ = readout _ _ _ o
  simp only [hX, hW, hB, hSW, hSG, hD, hST, hRW, hRB]

/-! ## Where each window's block sits in its array -/

/-- The block row is below 16 at every point. -/
theorem blockrow_le : ∀ t : Fin cfg0.N, win0_10.index t (0 : Fin 2) ≤ 15 :=
  (by decide +kernel : ∀ t : Fin grid0.N, win0_10.index t (0 : Fin 2) ≤ 15)

/-- The batch row that row `p` of point `t`'s blocks is: `1024 · (block row) + p`. -/
def row (t : Fin cfg0.N) (p : Fin 1024) : Fin 16384 :=
  ⟨win0_10.index t (0 : Fin 2) * 1024 + p.val, by have := blockrow_le t; have := p.isLt; omega⟩

/-- The batch block's entry `(p, k)` is the batch's entry `(row, k)`. -/
theorem emb_x (t : Fin cfg0.N) (p : Fin 1024) (a1 : Fin 1024) : ((cfg0.win 0).blk t).view.emb (ix2 p a1) = ix2 (row t p) a1 := by
  obtain ⟨e00, e01, e10, e11, e20, e21, e30, e31, e40, e41, e50, e51, e60, e61, e70, e71, e80, e81, e90, e91, ea1, ea0⟩ := idx_facts t
  funext a; apply Fin.ext
  match a with
  | ⟨0, _⟩ => show win0_0.index t (0 : Fin 2) * 1024 + 1 * p.val = win0_10.index t (0 : Fin 2) * 1024 + p.val; omega
  | ⟨1, _⟩ => show win0_0.index t (1 : Fin 2) * 1024 + 1 * a1.val = a1.val; omega
/-- The input weight's window is the whole array. -/
theorem emb_w (t : Fin cfg0.N) (a0 : Fin 512) (a1 : Fin 1024) : ((cfg0.win 1).blk t).view.emb (ix2 a0 a1) = ix2 a0 a1 := by
  obtain ⟨e00, e01, e10, e11, e20, e21, e30, e31, e40, e41, e50, e51, e60, e61, e70, e71, e80, e81, e90, e91, ea1, ea0⟩ := idx_facts t
  funext a; apply Fin.ext
  match a with
  | ⟨0, _⟩ => show win0_1.index t (0 : Fin 2) * 512 + 1 * a0.val = a0.val; omega
  | ⟨1, _⟩ => show win0_1.index t (1 : Fin 2) * 1024 + 1 * a1.val = a1.val; omega
/-- The projection bias row's window is the whole [1, 512] array. -/
theorem emb_b (t : Fin cfg0.N) (a0 : Fin 1) (a1 : Fin 512) : ((cfg0.win 2).blk t).view.emb (ix2 a0 a1) = ix2 a0 a1 := by
  obtain ⟨e00, e01, e10, e11, e20, e21, e30, e31, e40, e41, e50, e51, e60, e61, e70, e71, e80, e81, e90, e91, ea1, ea0⟩ := idx_facts t
  funext a; apply Fin.ext
  match a with
  | ⟨0, _⟩ => show win0_2.index t (0 : Fin 2) * 1 + 1 * a0.val = a0.val; omega
  | ⟨1, _⟩ => show win0_2.index t (1 : Fin 2) * 512 + 1 * a1.val = a1.val; omega
/-- The sensory weight's window is the whole array. -/
theorem emb_sw (t : Fin cfg0.N) (a0 : Fin 512) (a1 : Fin 512) : ((cfg0.win 3).blk t).view.emb (ix2 a0 a1) = ix2 a0 a1 := by
  obtain ⟨e00, e01, e10, e11, e20, e21, e30, e31, e40, e41, e50, e51, e60, e61, e70, e71, e80, e81, e90, e91, ea1, ea0⟩ := idx_facts t
  funext a; apply Fin.ext
  match a with
  | ⟨0, _⟩ => show win0_3.index t (0 : Fin 2) * 512 + 1 * a0.val = a0.val; omega
  | ⟨1, _⟩ => show win0_3.index t (1 : Fin 2) * 512 + 1 * a1.val = a1.val; omega
/-- The gate offset row's window is the whole [1, 512] array. -/
theorem emb_sg (t : Fin cfg0.N) (a0 : Fin 1) (a1 : Fin 512) : ((cfg0.win 4).blk t).view.emb (ix2 a0 a1) = ix2 a0 a1 := by
  obtain ⟨e00, e01, e10, e11, e20, e21, e30, e31, e40, e41, e50, e51, e60, e61, e70, e71, e80, e81, e90, e91, ea1, ea0⟩ := idx_facts t
  funext a; apply Fin.ext
  match a with
  | ⟨0, _⟩ => show win0_4.index t (0 : Fin 2) * 1 + 1 * a0.val = a0.val; omega
  | ⟨1, _⟩ => show win0_4.index t (1 : Fin 2) * 512 + 1 * a1.val = a1.val; omega
/-- The decay row's window is the whole [1, 512] array. -/
theorem emb_dec (t : Fin cfg0.N) (a0 : Fin 1) (a1 : Fin 512) : ((cfg0.win 5).blk t).view.emb (ix2 a0 a1) = ix2 a0 a1 := by
  obtain ⟨e00, e01, e10, e11, e20, e21, e30, e31, e40, e41, e50, e51, e60, e61, e70, e71, e80, e81, e90, e91, ea1, ea0⟩ := idx_facts t
  funext a; apply Fin.ext
  match a with
  | ⟨0, _⟩ => show win0_5.index t (0 : Fin 2) * 1 + 1 * a0.val = a0.val; omega
  | ⟨1, _⟩ => show win0_5.index t (1 : Fin 2) * 512 + 1 * a1.val = a1.val; omega
/-- The readout weight's window is the whole array. -/
theorem emb_rw (t : Fin cfg0.N) (a0 : Fin 512) (a1 : Fin 512) : ((cfg0.win 6).blk t).view.emb (ix2 a0 a1) = ix2 a0 a1 := by
  obtain ⟨e00, e01, e10, e11, e20, e21, e30, e31, e40, e41, e50, e51, e60, e61, e70, e71, e80, e81, e90, e91, ea1, ea0⟩ := idx_facts t
  funext a; apply Fin.ext
  match a with
  | ⟨0, _⟩ => show win0_6.index t (0 : Fin 2) * 512 + 1 * a0.val = a0.val; omega
  | ⟨1, _⟩ => show win0_6.index t (1 : Fin 2) * 512 + 1 * a1.val = a1.val; omega
/-- The readout bias row's window is the whole [1, 512] array. -/
theorem emb_rb (t : Fin cfg0.N) (a0 : Fin 1) (a1 : Fin 512) : ((cfg0.win 7).blk t).view.emb (ix2 a0 a1) = ix2 a0 a1 := by
  obtain ⟨e00, e01, e10, e11, e20, e21, e30, e31, e40, e41, e50, e51, e60, e61, e70, e71, e80, e81, e90, e91, ea1, ea0⟩ := idx_facts t
  funext a; apply Fin.ext
  match a with
  | ⟨0, _⟩ => show win0_7.index t (0 : Fin 2) * 1 + 1 * a0.val = a0.val; omega
  | ⟨1, _⟩ => show win0_7.index t (1 : Fin 2) * 512 + 1 * a1.val = a1.val; omega
/-- The old-state block's entry `(p, u)` is the old states' entry `(row, u)`. -/
theorem emb_st (t : Fin cfg0.N) (p : Fin 1024) (a1 : Fin 512) : ((cfg0.win 8).blk t).view.emb (ix2 p a1) = ix2 (row t p) a1 := by
  obtain ⟨e00, e01, e10, e11, e20, e21, e30, e31, e40, e41, e50, e51, e60, e61, e70, e71, e80, e81, e90, e91, ea1, ea0⟩ := idx_facts t
  funext a; apply Fin.ext
  match a with
  | ⟨0, _⟩ => show win0_8.index t (0 : Fin 2) * 1024 + 1 * p.val = win0_10.index t (0 : Fin 2) * 1024 + p.val; omega
  | ⟨1, _⟩ => show win0_8.index t (1 : Fin 2) * 512 + 1 * a1.val = a1.val; omega
/-- The output block's entry `(p, o)` is the output array's entry `(row, o)`. -/
theorem emb_out (t : Fin cfg0.N) (p : Fin 1024) (a1 : Fin 512) : ((cfg0.win 9).blk t).view.emb (ix2 p a1) = ix2 (row t p) a1 := by
  obtain ⟨e00, e01, e10, e11, e20, e21, e30, e31, e40, e41, e50, e51, e60, e61, e70, e71, e80, e81, e90, e91, ea1, ea0⟩ := idx_facts t
  funext a; apply Fin.ext
  match a with
  | ⟨0, _⟩ => show win0_9.index t (0 : Fin 2) * 1024 + 1 * p.val = win0_10.index t (0 : Fin 2) * 1024 + p.val; omega
  | ⟨1, _⟩ => show win0_9.index t (1 : Fin 2) * 512 + 1 * a1.val = a1.val; omega
/-- The new-state block's entry `(p, u)` is the new-state array's entry `(row, u)`. -/
theorem emb_new (t : Fin cfg0.N) (p : Fin 1024) (a1 : Fin 512) : ((cfg0.win 10).blk t).view.emb (ix2 p a1) = ix2 (row t p) a1 := by
  obtain ⟨e00, e01, e10, e11, e20, e21, e30, e31, e40, e41, e50, e51, e60, e61, e70, e71, e80, e81, e90, e91, ea1, ea0⟩ := idx_facts t
  funext a; apply Fin.ext
  match a with
  | ⟨0, _⟩ => show win0_10.index t (0 : Fin 2) * 1024 + 1 * p.val = win0_10.index t (0 : Fin 2) * 1024 + p.val; omega
  | ⟨1, _⟩ => show win0_10.index t (1 : Fin 2) * 512 + 1 * a1.val = a1.val; omega

/-! ## What each point writes back -/

/-- WHAT POINT `t` WRITES BACK to the new-state array is block `t` of `newStates`. -/
theorem flushed_new (c : Dev nD) (t : Fin cfg0.N) :
    (dats m 0 c).flushed 10 t = ((cfg0.win 10).blk t).view.read (Elt Ideal) (newStates m c) := by
  rw [Value.flushed10]
  unfold out0_10
  rw [View.canon_unit_zero zero_off]
  simp only [View.ld_unit_zero (S := S1024x1024) zero_off, View.ld_unit_zero (S := S512x1024) zero_off,
    View.ld_unit_zero (S := S1x512) zero_off, View.ld_unit_zero (S := S512x512) zero_off,
    View.ld_unit_zero (S := S1024x512) zero_off]
  funext j
  obtain ⟨p, q, rfl⟩ : ∃ (p : Fin 1024) (q : Fin 512), j = ix2 p q := ⟨j 0, j 1, eq_ix2 j⟩
  show k0_pay1 (iblk m c 0 t) (iblk m c 1 t) (iblk m c 2 t) (iblk m c 3 t) (iblk m c 4 t) (iblk m c 8 t) (iblk m c 5 t) (ix2 p q)
    = newStates m c (((cfg0.win 10).blk t).view.emb (ix2 p q))
  rw [emb_new]
  refine point_state (iblk m c 0 t) (iblk m c 1 t) (iblk m c 2 t) (iblk m c 3 t) (iblk m c 4 t) (iblk m c 8 t) (iblk m c 5 t)
    _ _ _ _ _ _ _ p q (row t p) (fun k => ?_) (fun u k => ?_) (fun u => ?_) (fun k u => ?_) (fun u => ?_) (fun u => ?_) (fun u => ?_)
  · show V m c main_arg0 (((cfg0.win 0).blk t).view.emb (ix2 p k)) = _
    rw [emb_x, V_main_arg0]
  · show (V m c main_v3 : S512x1024.Idx → EReal) (((cfg0.win 1).blk t).view.emb (ix2 u k)) = _
    rw [emb_w]; exact w_at m c u k
  · show (V m c main_v6 : S1x512.Idx → EReal) (((cfg0.win 2).blk t).view.emb (ix2 (0 : Fin 1) u)) = _
    rw [emb_b]; exact b_at m c u
  · show (V m c main_v4 : S512x512.Idx → EReal) (((cfg0.win 3).blk t).view.emb (ix2 k u)) = _
    rw [emb_sw]; exact sw_at m c k u
  · show (V m c main_v7 : S1x512.Idx → EReal) (((cfg0.win 4).blk t).view.emb (ix2 (0 : Fin 1) u)) = _
    rw [emb_sg]; exact sg_at m c u
  · show (V m c main_v8 : S1x512.Idx → EReal) (((cfg0.win 5).blk t).view.emb (ix2 (0 : Fin 1) u)) = _
    rw [emb_dec]; exact dec_at m c u
  · show V m c main_arg8 (((cfg0.win 8).blk t).view.emb (ix2 p u)) = _
    rw [emb_st, V_main_arg8]

/-- WHAT POINT `t` WRITES BACK to the output array is block `t` of `outputs`. -/
theorem flushed_out (c : Dev nD) (t : Fin cfg0.N) :
    (dats m 0 c).flushed 9 t = ((cfg0.win 9).blk t).view.read (Elt Ideal) (outputs m c) := by
  rw [Value.flushed9]
  unfold out0_9
  rw [View.canon_unit_zero zero_off]
  simp only [View.ld_unit_zero (S := S1024x1024) zero_off, View.ld_unit_zero (S := S512x1024) zero_off,
    View.ld_unit_zero (S := S1x512) zero_off, View.ld_unit_zero (S := S512x512) zero_off,
    View.ld_unit_zero (S := S1024x512) zero_off]
  funext j
  obtain ⟨p, o, rfl⟩ : ∃ (p : Fin 1024) (o : Fin 512), j = ix2 p o := ⟨j 0, j 1, eq_ix2 j⟩
  show k0_pay2 (iblk m c 0 t) (iblk m c 1 t) (iblk m c 2 t) (iblk m c 3 t) (iblk m c 4 t) (iblk m c 8 t) (iblk m c 5 t)
      (iblk m c 6 t) (iblk m c 7 t) (ix2 p o)
    = outputs m c (((cfg0.win 9).blk t).view.emb (ix2 p o))
  rw [emb_out]
  refine point_out (iblk m c 0 t) (iblk m c 1 t) (iblk m c 2 t) (iblk m c 3 t) (iblk m c 4 t) (iblk m c 8 t) (iblk m c 5 t)
    (iblk m c 6 t) (iblk m c 7 t) _ _ _ _ _ _ _ _ _ p o (row t p) (fun k => ?_) (fun u k => ?_) (fun u => ?_) (fun k u => ?_)
    (fun u => ?_) (fun u => ?_) (fun u => ?_) (fun o' k => ?_) (fun o' => ?_)
  · show V m c main_arg0 (((cfg0.win 0).blk t).view.emb (ix2 p k)) = _
    rw [emb_x, V_main_arg0]
  · show (V m c main_v3 : S512x1024.Idx → EReal) (((cfg0.win 1).blk t).view.emb (ix2 u k)) = _
    rw [emb_w]; exact w_at m c u k
  · show (V m c main_v6 : S1x512.Idx → EReal) (((cfg0.win 2).blk t).view.emb (ix2 (0 : Fin 1) u)) = _
    rw [emb_b]; exact b_at m c u
  · show (V m c main_v4 : S512x512.Idx → EReal) (((cfg0.win 3).blk t).view.emb (ix2 k u)) = _
    rw [emb_sw]; exact sw_at m c k u
  · show (V m c main_v7 : S1x512.Idx → EReal) (((cfg0.win 4).blk t).view.emb (ix2 (0 : Fin 1) u)) = _
    rw [emb_sg]; exact sg_at m c u
  · show (V m c main_v8 : S1x512.Idx → EReal) (((cfg0.win 5).blk t).view.emb (ix2 (0 : Fin 1) u)) = _
    rw [emb_dec]; exact dec_at m c u
  · show V m c main_arg8 (((cfg0.win 8).blk t).view.emb (ix2 p u)) = _
    rw [emb_st, V_main_arg8]
  · show (V m c main_v5 : S512x512.Idx → EReal) (((cfg0.win 6).blk t).view.emb (ix2 o' k)) = _
    rw [emb_rw]; exact rw_at m c o' k
  · show (V m c main_v9 : S1x512.Idx → EReal) (((cfg0.win 7).blk t).view.emb (ix2 (0 : Fin 1) o')) = _
    rw [emb_rb]; exact rb_at m c o'

/-! ## The blocks tile the arrays -/

/-- An index of the new-state array is in point `t`'s block iff each coordinate is in the block's range. -/
theorem mem_blk_new (t : Fin cfg0.N) (i : S16384x512.Idx) :
    i ∈ ((cfg0.win 10).blk t).view.set ↔ ∀ a : Fin 2, win0_10.index t a * S1024x512.size a ≤ (i a).val ∧ (i a).val < win0_10.index t a * S1024x512.size a + S1024x512.size a := by
  show i ∈ ((View.whole main_v10_1).slice (win0_10.rect t)).set ↔ _
  rw [View.set_slice_whole, Rect.mem_set_unit]
  exact Iff.rfl

/-- The same for the output array. -/
theorem mem_blk_out (t : Fin cfg0.N) (i : S16384x512.Idx) :
    i ∈ ((cfg0.win 9).blk t).view.set ↔ ∀ a : Fin 2, win0_9.index t a * S1024x512.size a ≤ (i a).val ∧ (i a).val < win0_9.index t a * S1024x512.size a + S1024x512.size a := by
  show i ∈ ((View.whole main_v10_0).slice (win0_9.rect t)).set ↔ _
  rw [View.set_slice_whole, Rect.mem_set_unit]
  exact Iff.rfl

/-- Every index of the new-state array is in the block of the point whose block row is `row / 1024`. -/
theorem cover_new (i : S16384x512.Idx) : ∃ t : Fin cfg0.N, (cfg0.win 10).flush t = true ∧ i ∈ ((cfg0.win 10).blk t).view.set := by
  have hi0 : (i 0).val < 16384 := (i 0).isLt
  have hi1 : (i 1).val < 512 := (i 1).isLt
  obtain ⟨t, ht⟩ := idx_onto ⟨(i 0).val / 1024, by omega⟩
  have ht' : win0_10.index t (0 : Fin 2) = (i 0).val / 1024 := ht
  obtain ⟨e00, e01, e10, e11, e20, e21, e30, e31, e40, e41, e50, e51, e60, e61, e70, e71, e80, e81, e90, e91, ea1, ea0⟩ := idx_facts t
  refine ⟨t, flush0_10 t, ?_⟩
  rw [mem_blk_new]
  intro a
  match a with
  | ⟨0, _⟩ => show win0_10.index t (0 : Fin 2) * 1024 ≤ (i 0).val ∧ (i 0).val < win0_10.index t (0 : Fin 2) * 1024 + 1024; omega
  | ⟨1, _⟩ => show win0_10.index t (1 : Fin 2) * 512 ≤ (i 1).val ∧ (i 1).val < win0_10.index t (1 : Fin 2) * 512 + 512; omega

/-- And every index of the output array likewise. -/
theorem cover_out (i : S16384x512.Idx) : ∃ t : Fin cfg0.N, (cfg0.win 9).flush t = true ∧ i ∈ ((cfg0.win 9).blk t).view.set := by
  have hi0 : (i 0).val < 16384 := (i 0).isLt
  have hi1 : (i 1).val < 512 := (i 1).isLt
  obtain ⟨t, ht⟩ := idx_onto ⟨(i 0).val / 1024, by omega⟩
  have ht' : win0_10.index t (0 : Fin 2) = (i 0).val / 1024 := ht
  obtain ⟨e00, e01, e10, e11, e20, e21, e30, e31, e40, e41, e50, e51, e60, e61, e70, e71, e80, e81, e90, e91, ea1, ea0⟩ := idx_facts t
  refine ⟨t, flush0_9 t, ?_⟩
  rw [mem_blk_out]
  intro a
  match a with
  | ⟨0, _⟩ => show win0_9.index t (0 : Fin 2) * 1024 ≤ (i 0).val ∧ (i 0).val < win0_9.index t (0 : Fin 2) * 1024 + 1024; omega
  | ⟨1, _⟩ => show win0_9.index t (1 : Fin 2) * 512 ≤ (i 1).val ∧ (i 1).val < win0_9.index t (1 : Fin 2) * 512 + 512; omega

/-! ## The arrays after the run -/

/-- The new-state array after the run is `stateArr` of the arguments. -/
theorem final_new (c : Dev nD) : (dats m 0 c).arrAt 10 cfg0.N = newStates m c :=
  (dats m 0 c).arrAt_eq_of_cover 10 (newStates m c) (fun t _ => flushed_new m c t) cover_new

/-- The output array after the run is `outArr` of the arguments. -/
theorem final_out (c : Dev nD) : (dats m 0 c).arrAt 9 cfg0.N = outputs m c :=
  (dats m 0 c).arrAt_eq_of_cover 9 (outputs m c) (fun t _ => flushed_out m c t) cover_out

/-- The kernel's run: every weakly fair execution terminates with the two results at `outArr` and `stateArr` of the
    arguments and the arguments unchanged. -/
theorem run : θ_run defs (onTc (τ := τ) (main (F := Ideal))) ⟨m, fun _ => 0, ρ⟩ fun r => ∀ c : Dev nD,
      r.2.mem ((c : Thread nD τ).loc main_v10_0) = outputs m c
      ∧ r.2.mem ((c : Thread nD τ).loc main_v10_1) = newStates m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final_out m c), (h c).2.1.trans (final_new m c), (h c).2.2⟩)
    (Value.run_blocks m ρ)

end Cert.KernelIdeal.CellValue

end
-- ==== Proof.RefCell.lean ====
/-
  The reference program computes the cell step of CellSpec.lean.

  Read one operation at a time at an index `(r, u)` of a [16384, 512] array, the reference's stages are: the
  projection `tanh (x r · w u + b u)` (its `dot_general` against the transposed weight is the sum over `k` of
  `x (r, k) * w (u, k)`); the gate, which the reference spells `1 / (1 + exp (-z))` with `z = Σ k, pr k * sw (k, u) + sg u`
  and which is the logistic function of `z` on the extended reals by that function's definition, the float
  pattern of `1.0` denoting `1`; the decay `exp (c / tau u)`; the relaxed state; and the readout against the
  transposed readout weight. Each stage lemma reads the stage through the generated read-at-an-index lemmas and
  identifies the composed index functions with plain coordinates.
-/
import proofs.«421318_j16544214024866_3_alg».proof.Proof.Gen.ReferenceIdeal.Read
import proofs.«421318_j16544214024866_3_alg».proof.Proof.CellSpec
import Idealize.ShloMosaic.PureOps.IdealRules

noncomputable section

namespace Cert.ReferenceIdeal.RefCell

open Cert.ReferenceIdeal Cert.ReferenceIdeal.Gen Cert.ReferenceIdeal.Read
open Idealize.ShloMosaic Idealize.ShloMosaic.TcCoe Idealize.ShloMosaic.ValueIdx Cert.Cell

variable (x0 : (⟨S16384x1024, .f32⟩ : BufTy).Contents (Elt Ideal)) (x1 : (⟨S512x1024, .f32⟩ : BufTy).Contents (Elt Ideal))
  (x2 : (⟨S512, .f32⟩ : BufTy).Contents (Elt Ideal)) (x3 : (⟨S512x512, .f32⟩ : BufTy).Contents (Elt Ideal))
  (x4 x5 : (⟨S512, .f32⟩ : BufTy).Contents (Elt Ideal)) (x6 : (⟨S512x512, .f32⟩ : BufTy).Contents (Elt Ideal))
  (x7 : (⟨S512, .f32⟩ : BufTy).Contents (Elt Ideal)) (x8 : (⟨S16384x512, .f32⟩ : BufTy).Contents (Elt Ideal))

/-- The float pattern of `1.0` denotes the number one. -/
theorem one_word : Ideal.ofBits .f32 0x3F800000#32 = 1 := IdealRules.sign_bit.ideal_onePat .f32

/-- The projection stage at `(r, u)`: row `r` of the batch against row `u` of the input weight, plus the bias. -/
theorem proj_at (r : Fin 16384) (u : Fin 512) :
    val_main_v5 (F := Ideal) x0 x1 x2 (ix2 r u)
      = proj (fun k => x0 (ix2 r k)) (fun u k => x1 (ix2 u k)) (fun u => x2 (ix1 u)) u := by
  rw [val_main_v5_apply, val_main_v4_apply, val_main_v1_apply, val_main_v3_apply, val_main_v2_apply]
  simp only [val_main_v0_apply]
  have e0 : ∀ k : Fin 1024, lidx_main_v1 (ix2 r u) k = ix2 r k := fun k => funext fun a => by
    match a with
    | ⟨0, _⟩ => rfl
    | ⟨1, _⟩ => rfl
  have e1 : ∀ k : Fin 1024, idx_main_v0 (ridx_main_v1 (ix2 r u) k) = ix2 u k := fun k => funext fun a => by
    match a with
    | ⟨0, _⟩ => rfl
    | ⟨1, _⟩ => rfl
  have e2 : idx_main_v2 (idx_main_v3 (ix2 r u)) = ix1 u := funext fun a => by
    match a with
    | ⟨0, _⟩ => rfl
  simp only [e0, e1, e2]
  rfl

/-- The gate stage at `(r, u)`: the reference's spelled-out sigmoid is the logistic function of the same argument. -/
theorem gate_at (r : Fin 16384) (u : Fin 512) :
    val_main_v15 (F := Ideal) x0 x1 x2 x3 x4 (ix2 r u)
      = gate (fun k => val_main_v5 (F := Ideal) x0 x1 x2 (ix2 r k)) (fun k u => x3 (ix2 k u)) (fun u => x4 (ix1 u)) u := by
  rw [val_main_v15_apply, val_main_v14_apply, val_main_cst_0_apply, val_main_v13_apply, val_main_v12_apply,
    val_main_cst_apply, val_main_v11_apply, val_main_v10_apply, val_main_v9_apply, val_main_v6_apply,
    val_main_v8_apply, val_main_v7_apply]
  have e0 : ∀ k : Fin 512, lidx_main_v6 (ix2 r u) k = ix2 r k := fun k => funext fun a => by
    match a with
    | ⟨0, _⟩ => rfl
    | ⟨1, _⟩ => rfl
  have e1 : ∀ k : Fin 512, ridx_main_v6 (ix2 r u) k = ix2 k u := fun k => funext fun a => by
    match a with
    | ⟨0, _⟩ => rfl
    | ⟨1, _⟩ => rfl
  have e2 : idx_main_v7 (idx_main_v8 (ix2 r u)) = ix1 u := funext fun a => by
    match a with
    | ⟨0, _⟩ => rfl
  simp only [e0, e1, e2]
  show Ideal.div (Ideal.ofBits .f32 0x3F800000#32) (Ideal.ofBits .f32 0x3F800000#32 + Ideal.exp (-_)) = Ideal.logistic _
  rw [one_word]
  rfl

/-- The decay stage at `u`. -/
theorem decay_at (u : Fin 512) :
    val_main_v18 (F := Ideal) x5 (ix1 u) = decay (fun u => x5 (ix1 u)) u := by
  rw [val_main_v18_apply, val_main_v17_apply, val_main_v16_apply, val_main_cst_1_apply]
  rfl

/-- The new-state stage at `(r, u)`: the gate, and the old state's gap to it scaled by the decay. -/
theorem state_at (r : Fin 16384) (u : Fin 512) :
    val_main_v23 (F := Ideal) x0 x1 x2 x3 x4 x5 x8 (ix2 r u)
      = state (fun k => x0 (ix2 r k)) (fun u k => x1 (ix2 u k)) (fun u => x2 (ix1 u)) (fun k u => x3 (ix2 k u))
          (fun u => x4 (ix1 u)) (decay fun u => x5 (ix1 u)) (fun u => x8 (ix2 r u)) u := by
  rw [val_main_v23_apply, val_main_v22_apply, val_main_v19_apply, val_main_v21_apply, val_main_v20_apply]
  have e2 : idx_main_v20 (idx_main_v21 (ix2 r u)) = ix1 u := funext fun a => by
    match a with
    | ⟨0, _⟩ => rfl
  rw [e2, decay_at, gate_at]
  simp only [proj_at]
  rfl

/-- The reference's second result IS the new-state array of the specification. -/
theorem state_eq :
    val_main_v23 (F := Ideal) x0 x1 x2 x3 x4 x5 x8 = stateArr x0 x1 x2 x3 x4 x5 x8 := by
  funext i
  obtain ⟨r, u, rfl⟩ : ∃ (r : Fin 16384) (u : Fin 512), i = ix2 r u := ⟨i 0, i 1, eq_ix2 i⟩
  rw [state_at]
  rfl

/-- The reference's first result IS the output array of the specification: the readout of the new-state row
    against row `o` of the readout weight (the program contracts with its transpose), plus the bias. -/
theorem out_eq :
    val_main_v28 (F := Ideal) x0 x1 x2 x3 x4 x5 x6 x7 x8 = outArr x0 x1 x2 x3 x4 x5 x6 x7 x8 := by
  funext i
  obtain ⟨r, o, rfl⟩ : ∃ (r : Fin 16384) (o : Fin 512), i = ix2 r o := ⟨i 0, i 1, eq_ix2 i⟩
  rw [val_main_v28_apply, val_main_v25_apply, val_main_v27_apply, val_main_v26_apply]
  simp only [val_main_v24_apply]
  have e0 : ∀ k : Fin 512, lidx_main_v25 (ix2 r o) k = ix2 r k := fun k => funext fun a => by
    match a with
    | ⟨0, _⟩ => rfl
    | ⟨1, _⟩ => rfl
  have e1 : ∀ k : Fin 512, idx_main_v24 (ridx_main_v25 (ix2 r o) k) = ix2 o k := fun k => funext fun a => by
    match a with
    | ⟨0, _⟩ => rfl
    | ⟨1, _⟩ => rfl
  have e2 : idx_main_v26 (idx_main_v27 (ix2 r o)) = ix1 o := funext fun a => by
    match a with
    | ⟨0, _⟩ => rfl
  simp only [e0, e1, e2, state_at]
  rfl

end Cert.ReferenceIdeal.RefCell

end
-- ==== Proof.lean ====
/-
  One step of a liquid time-constant cell, fused into one kernel over blocks of 1024 batch rows, against its plain
  reference: `tanh` of an affine projection of the batch, a sigmoid gate of an affine map of the projection, the
  state relaxed towards the gate with the per-unit decay `exp (c / tau)`, and an affine readout of the new state;
  the results are the readout and the new state.

  Over the extended reals the two programs compute the same expressions. The kernel's narrower float format for
  its matrix products is the identity there; its matrix products into a zero accumulator and the reference's
  contractions (against transposed weights) are the same sums; the kernel's logistic operation is by definition
  the quotient `1 / (1 + exp (-z))` the reference spells out; both compute the decay from the same printed
  constant; and the kernel's 16 row blocks tile the batch. CellSpec.lean states the common function row by row,
  RefCell.lean reads the reference's run as it, CellBody.lean the kernel body's stored values, CellArrays.lean the
  arrays the kernel's region is launched on, and CellBlocks.lean assembles the kernel's run from its blocks. No
  step uses that the inputs are finite.

  The three frames are the generated ones (the reference's is its generated run with the results dropped), and
  the kernel's idealization rewrote nothing, so that conjunct is trivial.
-/
import proofs.«421318_j16544214024866_3_alg».proof.Defs
import proofs.«421318_j16544214024866_3_alg».proof.Proof.Gen.Kernel
import proofs.«421318_j16544214024866_3_alg».proof.Proof.Gen.Kernel.Skeleton
import proofs.«421318_j16544214024866_3_alg».proof.Proof.Gen.Kernel.Launch
import proofs.«421318_j16544214024866_3_alg».proof.Proof.Gen.Kernel.Points
import proofs.«421318_j16544214024866_3_alg».proof.Proof.Gen.Kernel.Frame
import proofs.«421318_j16544214024866_3_alg».proof.Proof.Gen.KernelIdeal
import proofs.«421318_j16544214024866_3_alg».proof.Proof.Gen.KernelIdeal.Skeleton
import proofs.«421318_j16544214024866_3_alg».proof.Proof.Gen.KernelIdeal.Launch
import proofs.«421318_j16544214024866_3_alg».proof.Proof.Gen.KernelIdeal.Points
import proofs.«421318_j16544214024866_3_alg».proof.Proof.Gen.KernelIdeal.Frame
import proofs.«421318_j16544214024866_3_alg».proof.Proof.Gen.ReferenceIdeal
import proofs.«421318_j16544214024866_3_alg».proof.Proof.Gen.KernelIdeal.Value
import proofs.«421318_j16544214024866_3_alg».proof.Proof.Gen.ReferenceIdeal.Run
import proofs.«421318_j16544214024866_3_alg».proof.Proof.Gen.ReferenceIdeal.Read
import proofs.«421318_j16544214024866_3_alg».proof.Proof.Gen.Pre_finite_inputs
import proofs.«421318_j16544214024866_3_alg».proof.Proof.CellBlocks
import proofs.«421318_j16544214024866_3_alg».proof.Proof.RefCell
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2.2) (Cert.ReferenceIdeal.Value.run (F := Ideal) m ρ)

/-- From memories that agree on the nine arguments both programs end with the output at `outArr` and the new
    state at `stateArr` of the (kernel's) arguments: the kernel by its blocks, the reference by its stages. -/
theorem algebraic : Cert.algebraic_KernelIdeal_ReferenceIdeal := by
  intro m ρ m' ρ' _ hagree
  refine ⟨fun c => Cert.KernelIdeal.CellValue.outputs m c, fun c => Cert.KernelIdeal.CellValue.newStates m c,
    Cert.KernelIdeal.CellValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h0, h1, h2, h3, h4, h5, h6, h7, h8⟩ := hagree c
    refine (Cert.ReferenceIdeal.Read.val_main_v28_eq _ _ _ _ _ _ _ _ _).trans ?_
    rw [Cert.ReferenceIdeal.RefCell.out_eq, h0, h1, h2, h3, h4, h5, h6, h7, h8]
  · obtain ⟨h0, h1, h2, h3, h4, h5, h6, h7, h8⟩ := hagree c
    refine (Cert.ReferenceIdeal.Read.val_main_v23_eq _ _ _ _ _ _ _).trans ?_
    rw [Cert.ReferenceIdeal.RefCell.state_eq, h0, h1, h2, h3, h4, h5, h8]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
